-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S64x3 : Shape := ⟨2, ![64, 3]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x64 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x3 .f32) (main_arg1 : FVec F S8192x3 .f32) (main_arg2 : FVec F S64x3 .f32) (main_arg3 : FVec F S64 .f32) (main_arg4 : FVec F S1x64 .f32) (main_arg5 : FVec F S1 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S64x3 .f32 := Host.absf main_arg2
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8192x3 : Shape := ⟨2, ![8192, 3]⟩
abbrev S64x3 : Shape := ⟨2, ![64, 3]⟩
abbrev S64 : Shape := ⟨1, ![64]⟩
abbrev S1x64 : Shape := ⟨2, ![1, 64]⟩
abbrev S1 : Shape := ⟨1, ![1]⟩
abbrev S3x64 : Shape := ⟨2, ![3, 64]⟩
abbrev S8192x64 : Shape := ⟨2, ![8192, 64]⟩
abbrev S_ : Shape := ⟨0, ![]⟩
abbrev S64x1 : Shape := ⟨2, ![64, 1]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩
abbrev S8192x8192 : Shape := ⟨2, ![8192, 8192]⟩
abbrev S1024x3 : Shape := ⟨2, ![1024, 3]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 105
  | .vmem => 14
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S64x3, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S3x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S_, .f32⟩
  | .hbm, ⟨12, _⟩ => ⟨S_, .f32⟩
  | .hbm, ⟨13, _⟩ => ⟨S8192x64, .f32⟩
  | .hbm, ⟨14, _⟩ => ⟨S8192x64, .i1⟩
  | .hbm, ⟨15, _⟩ => ⟨S_, .f32⟩
  | .hbm, ⟨16, _⟩ => ⟨S8192x64, .f32⟩
  | .hbm, ⟨17, _⟩ => ⟨S8192x64, .i1⟩
  | .hbm, ⟨18, _⟩ => ⟨S_, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S_, .f32⟩
  | .hbm, ⟨28, _⟩ => ⟨S8192x64, .f32⟩
  | .hbm, ⟨29, _⟩ => ⟨S8192x64, .f32⟩
  | .hbm, ⟨30, _⟩ => ⟨S64x1, .f32⟩
  | .hbm, ⟨31, _⟩ => ⟨S8192x1, .f32⟩
  | .hbm, ⟨32, _⟩ => ⟨S1x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .i1⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192, .f32⟩
  | .hbm, ⟨50, _⟩ => ⟨S3x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S_, .f32⟩
  | .hbm, ⟨57, _⟩ => ⟨S8192x64, .f32⟩
  | .hbm, ⟨58, _⟩ => ⟨S8192x64, .i1⟩
  | .hbm, ⟨59, _⟩ => ⟨S_, .f32⟩
  | .hbm, ⟨60, _⟩ => ⟨S8192x64, .f32⟩
  | .hbm, ⟨61, _⟩ => ⟨S8192x64, .i1⟩
  | .hbm, ⟨62, _⟩ => ⟨S_, .f32⟩
  | .hbm, ⟨63, _⟩ => ⟨S_, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S_, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S_, .f32⟩
  | .hbm, ⟨72, _⟩ => ⟨S8192x64, .f32⟩
  | .hbm, ⟨73, _⟩ => ⟨S8192x64, .f32⟩
  | .hbm, ⟨74, _⟩ => ⟨S64x1, .f32⟩
  | .hbm, ⟨75, _⟩ => ⟨S8192x1, .f32⟩
  | .hbm, ⟨76, _⟩ => ⟨S1x1, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1, .i1⟩
  | .hbm, ⟨85, _⟩ => ⟨S8192x1, .f32⟩
  | .hbm, ⟨86, _⟩ => ⟨S8192x1, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192, .f32⟩
  | .hbm, ⟨94, _⟩ => ⟨S8192x3, .f32⟩
  | .hbm, ⟨95, _⟩ => ⟨S_, .f32⟩
  | .hbm, ⟨96, _⟩ => ⟨S8192, .f32⟩
  | .hbm, ⟨97, _⟩ => ⟨S8192x3, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1, .f32⟩
  | .hbm, ⟨102, _⟩ => ⟨S1x8192, .f32⟩
  | .hbm, ⟨103, _⟩ => ⟨S1x8192, .f32⟩
  | .hbm, ⟨104, _⟩ => ⟨S8192x8192, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_cst_1 : Ref sig .tc := ⟨.hbm, 18, rfl⟩
abbrev main_call0_call0_call0_v0 : Ref sig .tc := ⟨.hbm, 19, rfl⟩
abbrev main_call0_call0_call0_v1 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_call2_cst : Ref sig .tc := ⟨.hbm, 55, rfl⟩
abbrev main_call2_call0_cst : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_call0_cst_0 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_cst_1 : Ref sig .tc := ⟨.hbm, 62, rfl⟩
abbrev main_call2_call0_call0_v0 : Ref sig .tc := ⟨.hbm, 63, rfl⟩
abbrev main_call2_call0_call0_v1 : Ref sig .tc := ⟨.hbm, 64, rfl⟩
abbrev main_call2_call0_v4 : Ref sig .tc := ⟨.hbm, 65, rfl⟩
abbrev main_call2_call0_v5 : Ref sig .tc := ⟨.hbm, 66, rfl⟩
abbrev main_call2_call0_v6 : Ref sig .tc := ⟨.hbm, 67, rfl⟩
abbrev main_call2_call0_v7 : Ref sig .tc := ⟨.hbm, 68, rfl⟩
abbrev main_call2_call0_v8 : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_cst : Ref sig .tc := ⟨.hbm, 95, rfl⟩
abbrev main_v27 : Ref sig .tc := ⟨.hbm, 96, rfl⟩
abbrev main_v28 : Ref sig .tc := ⟨.hbm, 97, rfl⟩
abbrev main_cst_0 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S64x3_S3x64_1_0 : S64x3.Transposes [1, 0] S3x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1024x3_S1024x3_0_0 : ∀ a, (![0, 0] : Fin 2 → Nat) a + S1024x3.size a ≤ S1024x3.size a
  h_S1024x3 : 0 < S1024x3.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S8192x3_S3x64_S8192x64_1_0_0_1_n_n_wf : DotDims.WF S8192x3 S3x64 S8192x64 [1] [0] [0] [1] [] []
  dot_S8192x64_S64x1_S8192x1_1_0_0_1_n_n_wf : DotDims.WF S8192x64 S64x1 S8192x1 [1] [0] [0] [1] [] []
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S8192x3.size a
  hwx0_0 : ∀ i : grid0.Coords, EltTy.bits .f32 = 32 ∨ (Rect.block (s := S8192x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S8192x3.size a
  hwx0_1 : ∀ i : grid0.Coords, EltTy.bits .f32 = 32 ∨ (Rect.block (s := S8192x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)

variable [Facts₀]

def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x3 : Shape := ⟨2, ![8192, 3]⟩
abbrev S64x3 : Shape := ⟨2, ![64, 3]⟩
abbrev S64 : Shape := ⟨1, ![64]⟩
abbrev S1x64 : Shape := ⟨2, ![1, 64]⟩
abbrev S1 : Shape := ⟨1, ![1]⟩
abbrev S3x64 : Shape := ⟨2, ![3, 64]⟩
abbrev S8192x64 : Shape := ⟨2, ![8192, 64]⟩
abbrev S_ : Shape := ⟨0, ![]⟩
abbrev S64x1 : Shape := ⟨2, ![64, 1]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩
abbrev S8192x8192 : Shape := ⟨2, ![8192, 8192]⟩
abbrev S3x8192 : Shape := ⟨2, ![3, 8192]⟩

abbrev nBuf : Space → Nat
  | .hbm => 132
  | .vmem => 0
  | .smem => 0
  | _ => 0

abbrev hbmTy0_0 (i : Nat) : BufTy := match i % 128 with
  | 0 => ⟨S8192x3, .f32⟩
  | 1 => ⟨S8192x3, .f32⟩
  | 2 => ⟨S64x3, .f32⟩
  | 3 => ⟨S64, .f32⟩
  | 4 => ⟨S1x64, .f32⟩
  | 5 => ⟨S1, .f32⟩
  | 6 => ⟨S3x64, .f32⟩
  | 7 => ⟨S8192x64, .f32⟩
  | 8 => ⟨S1x64, .f32⟩
  | 9 => ⟨S8192x64, .f32⟩
  | 10 => ⟨S8192x64, .f32⟩
  | 11 => ⟨S_, .f32⟩
  | 12 => ⟨S_, .f32⟩
  | 13 => ⟨S8192x64, .f32⟩
  | 14 => ⟨S8192x64, .i1⟩
  | 15 => ⟨S_, .f32⟩
  | 16 => ⟨S8192x64, .f32⟩
  | 17 => ⟨S8192x64, .i1⟩
  | 18 => ⟨S_, .f32⟩
  | 19 => ⟨S_, .f32⟩
  | 20 => ⟨S8192x64, .f32⟩
  | 21 => ⟨S8192x64, .f32⟩
  | 22 => ⟨S8192x64, .f32⟩
  | 23 => ⟨S_, .f32⟩
  | 24 => ⟨S8192x64, .f32⟩
  | 25 => ⟨S8192x64, .f32⟩
  | 26 => ⟨S8192x64, .f32⟩
  | 27 => ⟨S_, .f32⟩
  | 28 => ⟨S8192x64, .f32⟩
  | 29 => ⟨S8192x64, .f32⟩
  | 30 => ⟨S64x1, .f32⟩
  | 31 => ⟨S8192x1, .f32⟩
  | 32 => ⟨S1x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1, .f32⟩
  | 39 => ⟨S8192x1, .f32⟩
  | 40 => ⟨S8192x1, .i1⟩
  | 41 => ⟨S8192x1, .f32⟩
  | 42 => ⟨S8192x1, .f32⟩
  | 43 => ⟨S8192x1, .f32⟩
  | 44 => ⟨S8192x1, .f32⟩
  | 45 => ⟨S8192x1, .f32⟩
  | 46 => ⟨S8192x1, .f32⟩
  | 47 => ⟨S8192x1, .f32⟩
  | 48 => ⟨S8192x1, .f32⟩
  | 49 => ⟨S8192, .f32⟩
  | 50 => ⟨S3x64, .f32⟩
  | 51 => ⟨S8192x64, .f32⟩
  | 52 => ⟨S1x64, .f32⟩
  | 53 => ⟨S8192x64, .f32⟩
  | 54 => ⟨S8192x64, .f32⟩
  | 55 => ⟨S_, .f32⟩
  | 56 => ⟨S_, .f32⟩
  | 57 => ⟨S8192x64, .f32⟩
  | 58 => ⟨S8192x64, .i1⟩
  | 59 => ⟨S_, .f32⟩
  | 60 => ⟨S8192x64, .f32⟩
  | 61 => ⟨S8192x64, .i1⟩
  | 62 => ⟨S_, .f32⟩
  | 63 => ⟨S_, .f32⟩
  | 64 => ⟨S8192x64, .f32⟩
  | 65 => ⟨S8192x64, .f32⟩
  | 66 => ⟨S8192x64, .f32⟩
  | 67 => ⟨S_, .f32⟩
  | 68 => ⟨S8192x64, .f32⟩
  | 69 => ⟨S8192x64, .f32⟩
  | 70 => ⟨S8192x64, .f32⟩
  | 71 => ⟨S_, .f32⟩
  | 72 => ⟨S8192x64, .f32⟩
  | 73 => ⟨S8192x64, .f32⟩
  | 74 => ⟨S64x1, .f32⟩
  | 75 => ⟨S8192x1, .f32⟩
  | 76 => ⟨S1x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1, .f32⟩
  | 83 => ⟨S8192x1, .f32⟩
  | 84 => ⟨S8192x1, .i1⟩
  | 85 => ⟨S8192x1, .f32⟩
  | 86 => ⟨S8192x1, .f32⟩
  | 87 => ⟨S8192x1, .f32⟩
  | 88 => ⟨S8192x1, .f32⟩
  | 89 => ⟨S8192x1, .f32⟩
  | 90 => ⟨S8192x1, .f32⟩
  | 91 => ⟨S8192x1, .f32⟩
  | 92 => ⟨S8192x1, .f32⟩
  | 93 => ⟨S8192, .f32⟩
  | 94 => ⟨S8192x3, .f32⟩
  | 95 => ⟨S_, .f32⟩
  | 96 => ⟨S8192, .f32⟩
  | 97 => ⟨S8192x1, .f32⟩
  | 98 => ⟨S8192x3, .f32⟩
  | 99 => ⟨S_, .f32⟩
  | 100 => ⟨S8192, .f32⟩
  | 101 => ⟨S1x8192, .f32⟩
  | 102 => ⟨S8192x8192, .f32⟩
  | 103 => ⟨S8192x8192, .f32⟩
  | 104 => ⟨S8192x8192, .f32⟩
  | 105 => ⟨S3x8192, .f32⟩
  | 106 => ⟨S8192x8192, .f32⟩
  | 107 => ⟨S_, .f32⟩
  | 108 => ⟨S8192x8192, .f32⟩
  | 109 => ⟨S8192x8192, .f32⟩
  | 110 => ⟨S8192x8192, .f32⟩
  | 111 => ⟨S8192x1, .f32⟩
  | 112 => ⟨S8192x1, .f32⟩
  | 113 => ⟨S1x8192, .f32⟩
  | 114 => ⟨S1x8192, .f32⟩
  | 115 => ⟨S8192x8192, .f32⟩
  | 116 => ⟨S8192x8192, .f32⟩
  | 117 => ⟨S8192x8192, .f32⟩
  | 118 => ⟨S8192x1, .f32⟩
  | 119 => ⟨S_, .f32⟩
  | 120 => ⟨S8192x1, .f32⟩
  | 121 => ⟨S8192x1, .f32⟩
  | 122 => ⟨S1x8192, .f32⟩
  | 123 => ⟨S8192x8192, .f32⟩
  | 124 => ⟨S8192x8192, .f32⟩
  | 125 => ⟨S8192x8192, .f32⟩
  | 126 => ⟨S8192x8192, .f32⟩
  | 127 => ⟨S8192x8192, .f32⟩
  | _ => ⟨S8192x3, .f32⟩

abbrev hbmTy0_1 (i : Nat) : BufTy := match i % 128 with
  | 0 => ⟨S8192x8192, .f32⟩
  | 1 => ⟨S8192x8192, .f32⟩
  | 2 => ⟨S8192x8192, .f32⟩
  | 3 => ⟨S8192x8192, .f32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_cst_1 : Ref sig .tc := ⟨.hbm, 18, rfl⟩
abbrev main_call0_call0_call0_v0 : Ref sig .tc := ⟨.hbm, 19, rfl⟩
abbrev main_call0_call0_call0_v1 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_call2_cst : Ref sig .tc := ⟨.hbm, 55, rfl⟩
abbrev main_call2_call0_cst : Ref sig .tc := ⟨.hbm, 56, rfl⟩
abbrev main_call2_call0_v0 : Ref sig .tc := ⟨.hbm, 57, rfl⟩
abbrev main_call2_call0_v1 : Ref sig .tc := ⟨.hbm, 58, rfl⟩
abbrev main_call2_call0_cst_0 : Ref sig .tc := ⟨.hbm, 59, rfl⟩
abbrev main_call2_call0_v2 : Ref sig .tc := ⟨.hbm, 60, rfl⟩
abbrev main_call2_call0_v3 : Ref sig .tc := ⟨.hbm, 61, rfl⟩
abbrev main_call2_call0_cst_1 : Ref sig .tc := ⟨.hbm, 62, rfl⟩
abbrev main_call2_call0_call0_v0 : Ref sig .tc := ⟨.hbm, 63, rfl⟩
abbrev main_call2_call0_call0_v1 : Ref sig .tc := ⟨.hbm, 64, rfl⟩
abbrev main_call2_call0_v4 : Ref sig .tc := ⟨.hbm, 65, rfl⟩
abbrev main_call2_call0_v5 : Ref sig .tc := ⟨.hbm, 66, rfl⟩
abbrev main_call2_call0_v6 : Ref sig .tc := ⟨.hbm, 67, rfl⟩
abbrev main_call2_call0_v7 : Ref sig .tc := ⟨.hbm, 68, rfl⟩
abbrev main_call2_call0_v8 : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_cst : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_cst_0 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_cst_1 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_cst_2 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩

abbrev nD : Nat := 1
abbrev τ : Topo := Topo.v7x

variable {F : FTy → Type} [FloatOps F]

class Facts₀ : Prop where
  transposes_S64x3_S3x64_1_0 : S64x3.Transposes [1, 0] S3x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  reducesTo_S8192x3_S8192_d1 : S8192x3.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x3_S3x8192_1_0 : S8192x3.Transposes [1, 0] S3x8192
  bcast_S_S8192x8192 : S_.BroadcastsInDim S8192x8192 (![] : Fin 0 → Fin S8192x8192.rank)
  dot_S8192x3_S3x64_S8192x64_1_0_0_1_n_n_wf : DotDims.WF S8192x3 S3x64 S8192x64 [1] [0] [0] [1] [] []
  dot_S8192x64_S64x1_S8192x1_1_0_0_1_n_n_wf : DotDims.WF S8192x64 S64x1 S8192x1 [1] [0] [0] [1] [] []
  dot_S8192x3_S3x8192_S8192x8192_1_0_0_1_n_n_wf : DotDims.WF S8192x3 S3x8192 S8192x8192 [1] [0] [0] [1] [] []

variable [Facts₀]

def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.LibAfter.lean ====
/-
  Two facts about a straight line of host operations cut in two.
  The contents after a concatenated line are the contents after its second half, started from
  the contents after its first half; and a property of every operation of both halves is a
  property of every operation of the whole line.
-/
import Idealize.ShloMosaic.Lib.StableHlo.Run

namespace Cert.LibAfter

open Idealize.ShloMosaic Idealize.ShloMosaic.StableHlo

variable {τ : Topo} {sig : RefSig} {Val : EltTy → Type}

/-- Running `l₁` then `l₂` from `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A predicate true of every element of two lists is true of every element of their concatenation. -/
theorem forall_append {α : Type*} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

end Cert.LibAfter
-- ==== Proof.RefRun.lean ====
/-
  The reference program's @main as a straight line of host operations, and its run.

  @main computes, for the rows of `x` and of `y`, the per-point lengthscale
  `softplus (selu (pts · W1ᵀ + b1) · W2ᵀ + b2)` (the same chain twice: `opsScale`, 88
  operations, the outlined functions `@selu` (which calls `@elu`, which calls `@_where` and
  `@_where_0`) and `@softplus` written at their call sites over each call's buffer record),
  then the pairwise matrix `sqrt (2·sx·sy / (sx² + sy²)) · exp (-(‖x‖² + ‖y‖² - 2·x·yᵀ) / (sx² + sy²))`
  (`opsPair`, 38 operations). Every weakly fair execution of @main terminates with each
  buffer at the fold of these operations' results over the launch contents.
-/
import proofs.«172669_j19224273617254_1_alg».proof.Proof.Gen.ReferenceIdeal
import proofs.«172669_j19224273617254_1_alg».proof.Proof.LibAfter
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@selu` applied to the value in `a`, over one call's buffers `φ`: the scale constant, then `@elu`
    (the comparison with zero twice, `@_where` replacing the positive entries by zero before `expm1`,
    the product with the scale, `@_where_0` choosing between the entry and that product), then the
    product with the second constant. -/
abbrev seluOps (a : TRef sig ⟨S8192x64, .f32⟩) (φ : fn_selu.Bufs) : List (HloOp τ sig (Elt F)) :=
  [ TRef.nullary φ.cst (constant S_ .f32 0x3FD62D7D#32),
    TRef.nullary φ.call0.cst (constant S_ .f32 0x00000000#32),
    TRef.unary φ.call0.cst φ.call0.v0 (broadcastInDim S8192x64 ![] bcast_S_S8192x64),
    TRef.binary a φ.call0.v0 φ.call0.v1 (cmpf .ogt),
    TRef.nullary φ.call0.cst_0 (constant S_ .f32 0x00000000#32),
    TRef.unary φ.call0.cst_0 φ.call0.v2 (broadcastInDim S8192x64 ![] bcast_S_S8192x64),
    TRef.binary a φ.call0.v2 φ.call0.v3 (cmpf .ogt),
    TRef.nullary φ.call0.cst_1 (constant S_ .f32 0x00000000#32),
    TRef.unary φ.call0.cst_1 φ.call0.call0.v0 id,
    TRef.unary φ.call0.call0.v0 φ.call0.call0.v1 (broadcastInDim S8192x64 ![] bcast_S_S8192x64),
    TRef.ternary φ.call0.v3 φ.call0.call0.v1 a φ.call0.call0.v2 select,
    TRef.unary φ.call0.call0.v2 φ.call0.v5 Host.expm1,
    TRef.unary φ.cst φ.call0.v6 id,
    TRef.unary φ.call0.v6 φ.call0.v7 (broadcastInDim S8192x64 ![] bcast_S_S8192x64),
    TRef.binary φ.call0.v7 φ.call0.v5 φ.call0.v8 mulf,
    TRef.ternary φ.call0.v1 a φ.call0.v8 φ.call0.call1.v0 select,
    TRef.nullary φ.cst_0 (constant S_ .f32 0x3F867D5F#32),
    TRef.unary φ.cst_0 φ.v1 (broadcastInDim S8192x64 ![] bcast_S_S8192x64),
    TRef.binary φ.v1 φ.call0.call1.v0 φ.v2 mulf ]

/-- `@softplus` applied to the value in `a`, over one call's buffers `φ`:
    `max a 0 + log1p (exp (-|a - 0|))`, and `a + 0` where `a - 0` differs from itself. -/
abbrev softplusOps (a : TRef sig ⟨S8192x1, .f32⟩) (φ : fn_softplus.Bufs) : List (HloOp τ sig (Elt F)) :=
  [ TRef.nullary φ.cst (constant S_ .f32 0x00000000#32),
    TRef.unary φ.cst φ.v0 (broadcastInDim S8192x1 ![] bcast_S_S8192x1),
    TRef.binary a φ.v0 φ.v1 maximumf,
    TRef.unary φ.cst φ.v2 (broadcastInDim S8192x1 ![] bcast_S_S8192x1),
    TRef.binary a φ.v2 φ.v3 subf,
    TRef.binary φ.v3 φ.v3 φ.v4 (cmpf .une),
    TRef.unary φ.cst φ.v5 (broadcastInDim S8192x1 ![] bcast_S_S8192x1),
    TRef.binary a φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- The lengthscale chain of `x` (into `%12`) and of `y` (into `%25`): @main's statements `%0` … `%25`. -/
abbrev opsScale : List (HloOp τ sig (Elt F)) :=
  [ unary main_arg2 main_v0 ((transpose S3x64 [1, 0] · transposes_S64x3_S3x64_1_0) : (⟨S64x3, .f32⟩ : BufTy).Contents (Elt F) → (⟨S3x64, .f32⟩ : BufTy).Contents (Elt F)),
    binary main_arg0 main_v0 main_v1 ((fun l r => Host.dotGeneral dot_S8192x3_S3x64_S8192x64_1_0_0_1_n_n none l r) : (⟨S8192x3, .f32⟩ : BufTy).Contents (Elt F) → (⟨S3x64, .f32⟩ : BufTy).Contents (Elt F) → (⟨S8192x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S8192x64 ![0, 1] bcast_S1x64_S8192x64_0_1 : (⟨S1x64, .f32⟩ : BufTy).Contents (Elt F) → (⟨S8192x64, .f32⟩ : BufTy).Contents (Elt F)),
    binary main_v1 main_v3 main_v4 (addf : (⟨S8192x64, .f32⟩ : BufTy).Contents (Elt F) → (⟨S8192x64, .f32⟩ : BufTy).Contents (Elt F) → (⟨S8192x64, .f32⟩ : BufTy).Contents (Elt F)) ]
  ++ seluOps (F := F) (.of main_v4) main_call0
  ++ [ unary main_arg4 main_v6 ((transpose S64x1 [1, 0] · transposes_S1x64_S64x1_1_0) : (⟨S1x64, .f32⟩ : BufTy).Contents (Elt F) → (⟨S64x1, .f32⟩ : BufTy).Contents (Elt F)),
    binary main_v5 main_v6 main_v7 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg5 main_v8 (broadcastInDim S1x1 ![1] bcast_S1_S1x1_1 : (⟨S1, .f32⟩ : BufTy).Contents (Elt F) → (⟨S1x1, .f32⟩ : BufTy).Contents (Elt F)),
    unary main_v8 main_v9 (broadcastInDim S8192x1 ![0, 1] bcast_S1x1_S8192x1_0_1 : (⟨S1x1, .f32⟩ : BufTy).Contents (Elt F) → (⟨S8192x1, .f32⟩ : BufTy).Contents (Elt F)),
    binary main_v7 main_v9 main_v10 (addf : (⟨S8192x1, .f32⟩ : BufTy).Contents (Elt F) → (⟨S8192x1, .f32⟩ : BufTy).Contents (Elt F) → (⟨S8192x1, .f32⟩ : BufTy).Contents (Elt F)) ]
  ++ softplusOps (F := F) (.of main_v10) main_call1
  ++ [ reshape main_v11 main_v12 rfl shapeCasts_S8192x1_S8192,
    unary main_arg2 main_v13 ((transpose S3x64 [1, 0] · transposes_S64x3_S3x64_1_0) : (⟨S64x3, .f32⟩ : BufTy).Contents (Elt F) → (⟨S3x64, .f32⟩ : BufTy).Contents (Elt F)),
    binary main_arg1 main_v13 main_v14 ((fun l r => Host.dotGeneral dot_S8192x3_S3x64_S8192x64_1_0_0_1_n_n none l r) : (⟨S8192x3, .f32⟩ : BufTy).Contents (Elt F) → (⟨S3x64, .f32⟩ : BufTy).Contents (Elt F) → (⟨S8192x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S8192x64 ![0, 1] bcast_S1x64_S8192x64_0_1 : (⟨S1x64, .f32⟩ : BufTy).Contents (Elt F) → (⟨S8192x64, .f32⟩ : BufTy).Contents (Elt F)),
    binary main_v14 main_v16 main_v17 (addf : (⟨S8192x64, .f32⟩ : BufTy).Contents (Elt F) → (⟨S8192x64, .f32⟩ : BufTy).Contents (Elt F) → (⟨S8192x64, .f32⟩ : BufTy).Contents (Elt F)) ]
  ++ seluOps (F := F) (.of main_v17) main_call2
  ++ [ unary main_arg4 main_v19 ((transpose S64x1 [1, 0] · transposes_S1x64_S64x1_1_0) : (⟨S1x64, .f32⟩ : BufTy).Contents (Elt F) → (⟨S64x1, .f32⟩ : BufTy).Contents (Elt F)),
    binary main_v18 main_v19 main_v20 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_arg5 main_v21 (broadcastInDim S1x1 ![1] bcast_S1_S1x1_1 : (⟨S1, .f32⟩ : BufTy).Contents (Elt F) → (⟨S1x1, .f32⟩ : BufTy).Contents (Elt F)),
    unary main_v21 main_v22 (broadcastInDim S8192x1 ![0, 1] bcast_S1x1_S8192x1_0_1 : (⟨S1x1, .f32⟩ : BufTy).Contents (Elt F) → (⟨S8192x1, .f32⟩ : BufTy).Contents (Elt F)),
    binary main_v20 main_v22 main_v23 (addf : (⟨S8192x1, .f32⟩ : BufTy).Contents (Elt F) → (⟨S8192x1, .f32⟩ : BufTy).Contents (Elt F) → (⟨S8192x1, .f32⟩ : BufTy).Contents (Elt F)) ]
  ++ softplusOps (F := F) (.of main_v23) main_call3
  ++ [ reshape main_v24 main_v25 rfl shapeCasts_S8192x1_S8192 ]

/-- The pairwise matrix from `x`, `y` and the two lengthscale vectors: @main's statements `%26` … `%59`. -/
abbrev opsPair : List (HloOp τ sig (Elt F)) :=
  [ binary main_arg0 main_arg0 main_v26 (mulf : (⟨S8192x3, .f32⟩ : BufTy).Contents (Elt F) → (⟨S8192x3, .f32⟩ : BufTy).Contents (Elt F) → (⟨S8192x3, .f32⟩ : BufTy).Contents (Elt F)),
    nullary main_cst (constant S_ .f32 0x00000000#32),
    binary main_v26 main_cst main_v27 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    binary main_arg1 main_arg1 main_v29 (mulf : (⟨S8192x3, .f32⟩ : BufTy).Contents (Elt F) → (⟨S8192x3, .f32⟩ : BufTy).Contents (Elt F) → (⟨S8192x3, .f32⟩ : BufTy).Contents (Elt F)),
    nullary main_cst_0 (constant S_ .f32 0x00000000#32),
    binary main_v29 main_cst_0 main_v30 ((fun x v => Host.reduceAdd x v reducesTo_S8192x3_S8192_d1 h_S_) : (⟨S8192x3, .f32⟩ : BufTy).Contents (Elt F) → (⟨S_, .f32⟩ : BufTy).Contents (Elt F) → (⟨S8192, .f32⟩ : BufTy).Contents (Elt F)),
    unary main_v30 main_v31 (broadcastInDim S1x8192 ![1] bcast_S8192_S1x8192_1 : (⟨S8192, .f32⟩ : BufTy).Contents (Elt F) → (⟨S1x8192, .f32⟩ : BufTy).Contents (Elt F)),
    unary main_v28 main_v32 (broadcastInDim S8192x8192 ![0, 1] bcast_S8192x1_S8192x8192_0_1 : (⟨S8192x1, .f32⟩ : BufTy).Contents (Elt F) → (⟨S8192x8192, .f32⟩ : BufTy).Contents (Elt F)),
    unary main_v31 main_v33 (broadcastInDim S8192x8192 ![0, 1] bcast_S1x8192_S8192x8192_0_1 : (⟨S1x8192, .f32⟩ : BufTy).Contents (Elt F) → (⟨S8192x8192, .f32⟩ : BufTy).Contents (Elt F)),
    binary main_v32 main_v33 main_v34 (addf : (⟨S8192x8192, .f32⟩ : BufTy).Contents (Elt F) → (⟨S8192x8192, .f32⟩ : BufTy).Contents (Elt F) → (⟨S8192x8192, .f32⟩ : BufTy).Contents (Elt F)),
    unary main_arg1 main_v35 ((transpose S3x8192 [1, 0] · transposes_S8192x3_S3x8192_1_0) : (⟨S8192x3, .f32⟩ : BufTy).Contents (Elt F) → (⟨S3x8192, .f32⟩ : BufTy).Contents (Elt F)),
    binary main_arg0 main_v35 main_v36 ((fun l r => Host.dotGeneral dot_S8192x3_S3x8192_S8192x8192_1_0_0_1_n_n none l r) : (⟨S8192x3, .f32⟩ : BufTy).Contents (Elt F) → (⟨S3x8192, .f32⟩ : BufTy).Contents (Elt F) → (⟨S8192x8192, .f32⟩ : BufTy).Contents (Elt F)),
    nullary main_cst_1 (constant S_ .f32 0x40000000#32),
    unary main_cst_1 main_v37 (broadcastInDim S8192x8192 ![] bcast_S_S8192x8192 : (⟨S_, .f32⟩ : BufTy).Contents (Elt F) → (⟨S8192x8192, .f32⟩ : BufTy).Contents (Elt F)),
    binary main_v37 main_v36 main_v38 (mulf : (⟨S8192x8192, .f32⟩ : BufTy).Contents (Elt F) → (⟨S8192x8192, .f32⟩ : BufTy).Contents (Elt F) → (⟨S8192x8192, .f32⟩ : BufTy).Contents (Elt F)),
    binary main_v34 main_v38 main_v39 (subf : (⟨S8192x8192, .f32⟩ : BufTy).Contents (Elt F) → (⟨S8192x8192, .f32⟩ : BufTy).Contents (Elt F) → (⟨S8192x8192, .f32⟩ : BufTy).Contents (Elt F)),
    unary main_v12 main_v40 (broadcastInDim S8192x1 ![0] bcast_S8192_S8192x1_0 : (⟨S8192, .f32⟩ : BufTy).Contents (Elt F) → (⟨S8192x1, .f32⟩ : BufTy).Contents (Elt F)),
    binary main_v40 main_v40 main_v41 (mulf : (⟨S8192x1, .f32⟩ : BufTy).Contents (Elt F) → (⟨S8192x1, .f32⟩ : BufTy).Contents (Elt F) → (⟨S8192x1, .f32⟩ : BufTy).Contents (Elt F)),
    unary main_v25 main_v42 (broadcastInDim S1x8192 ![1] bcast_S8192_S1x8192_1 : (⟨S8192, .f32⟩ : BufTy).Contents (Elt F) → (⟨S1x8192, .f32⟩ : BufTy).Contents (Elt F)),
    binary main_v42 main_v42 main_v43 (mulf : (⟨S1x8192, .f32⟩ : BufTy).Contents (Elt F) → (⟨S1x8192, .f32⟩ : BufTy).Contents (Elt F) → (⟨S1x8192, .f32⟩ : BufTy).Contents (Elt F)),
    unary main_v41 main_v44 (broadcastInDim S8192x8192 ![0, 1] bcast_S8192x1_S8192x8192_0_1 : (⟨S8192x1, .f32⟩ : BufTy).Contents (Elt F) → (⟨S8192x8192, .f32⟩ : BufTy).Contents (Elt F)),
    unary main_v43 main_v45 (broadcastInDim S8192x8192 ![0, 1] bcast_S1x8192_S8192x8192_0_1 : (⟨S1x8192, .f32⟩ : BufTy).Contents (Elt F) → (⟨S8192x8192, .f32⟩ : BufTy).Contents (Elt F)),
    binary main_v44 main_v45 main_v46 (addf : (⟨S8192x8192, .f32⟩ : BufTy).Contents (Elt F) → (⟨S8192x8192, .f32⟩ : BufTy).Contents (Elt F) → (⟨S8192x8192, .f32⟩ : BufTy).Contents (Elt F)),
    unary main_v12 main_v47 (broadcastInDim S8192x1 ![0] bcast_S8192_S8192x1_0 : (⟨S8192, .f32⟩ : BufTy).Contents (Elt F) → (⟨S8192x1, .f32⟩ : BufTy).Contents (Elt F)),
    nullary main_cst_2 (constant S_ .f32 0x40000000#32),
    unary main_cst_2 main_v48 (broadcastInDim S8192x1 ![] bcast_S_S8192x1 : (⟨S_, .f32⟩ : BufTy).Contents (Elt F) → (⟨S8192x1, .f32⟩ : BufTy).Contents (Elt F)),
    binary main_v48 main_v47 main_v49 (mulf : (⟨S8192x1, .f32⟩ : BufTy).Contents (Elt F) → (⟨S8192x1, .f32⟩ : BufTy).Contents (Elt F) → (⟨S8192x1, .f32⟩ : BufTy).Contents (Elt F)),
    unary main_v25 main_v50 (broadcastInDim S1x8192 ![1] bcast_S8192_S1x8192_1 : (⟨S8192, .f32⟩ : BufTy).Contents (Elt F) → (⟨S1x8192, .f32⟩ : BufTy).Contents (Elt F)),
    unary main_v49 main_v51 (broadcastInDim S8192x8192 ![0, 1] bcast_S8192x1_S8192x8192_0_1 : (⟨S8192x1, .f32⟩ : BufTy).Contents (Elt F) → (⟨S8192x8192, .f32⟩ : BufTy).Contents (Elt F)),
    unary main_v50 main_v52 (broadcastInDim S8192x8192 ![0, 1] bcast_S1x8192_S8192x8192_0_1 : (⟨S1x8192, .f32⟩ : BufTy).Contents (Elt F) → (⟨S8192x8192, .f32⟩ : BufTy).Contents (Elt F)),
    binary main_v51 main_v52 main_v53 (mulf : (⟨S8192x8192, .f32⟩ : BufTy).Contents (Elt F) → (⟨S8192x8192, .f32⟩ : BufTy).Contents (Elt F) → (⟨S8192x8192, .f32⟩ : BufTy).Contents (Elt F)),
    binary main_v53 main_v46 main_v54 (Host.divf : (⟨S8192x8192, .f32⟩ : BufTy).Contents (Elt F) → (⟨S8192x8192, .f32⟩ : BufTy).Contents (Elt F) → (⟨S8192x8192, .f32⟩ : BufTy).Contents (Elt F)),
    unary main_v54 main_v55 (Host.sqrt : (⟨S8192x8192, .f32⟩ : BufTy).Contents (Elt F) → (⟨S8192x8192, .f32⟩ : BufTy).Contents (Elt F)),
    unary main_v39 main_v56 (Host.negf : (⟨S8192x8192, .f32⟩ : BufTy).Contents (Elt F) → (⟨S8192x8192, .f32⟩ : BufTy).Contents (Elt F)),
    binary main_v56 main_v46 main_v57 (Host.divf : (⟨S8192x8192, .f32⟩ : BufTy).Contents (Elt F) → (⟨S8192x8192, .f32⟩ : BufTy).Contents (Elt F) → (⟨S8192x8192, .f32⟩ : BufTy).Contents (Elt F)),
    unary main_v57 main_v58 (Host.exp : (⟨S8192x8192, .f32⟩ : BufTy).Contents (Elt F) → (⟨S8192x8192, .f32⟩ : BufTy).Contents (Elt F)),
    binary main_v55 main_v58 main_v59 (mulf : (⟨S8192x8192, .f32⟩ : BufTy).Contents (Elt F) → (⟨S8192x8192, .f32⟩ : BufTy).Contents (Elt F) → (⟨S8192x8192, .f32⟩ : BufTy).Contents (Elt F)) ]

/-- @main's operations, in order. -/
abbrev ops : List (HloOp τ sig (Elt F)) := opsScale ++ opsPair

/-- @main is that straight line: the outlined functions unfolded at their calls, the two windows of
    statements run one after the other. -/
theorem main_eq (c : Dev nD) : main (F := F) c = seq (ops (F := F)) := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation of the lengthscale chain touches TensorCore buffers only. -/
theorem opsScale_sub : (opsScale : List (HloOp τ sig (Elt F))).Forall fun op => op.bufs ⊆ tcRefs τ sig := by
  simp only [opsScale, seluOps, softplusOps, List.cons_append, List.nil_append]
  exact ⟨
    unary_bufs_sub .., binary_bufs_sub .., unary_bufs_sub .., unary_bufs_sub .., binary_bufs_sub .., nullary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., unary_bufs_sub ..,
    unary_bufs_sub .., binary_bufs_sub .., ternary_bufs_sub .., nullary_bufs_sub .., unary_bufs_sub .., binary_bufs_sub ..,
    unary_bufs_sub .., binary_bufs_sub .., unary_bufs_sub .., unary_bufs_sub .., binary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., reshape_bufs_sub .., unary_bufs_sub .., binary_bufs_sub .., unary_bufs_sub .., unary_bufs_sub ..,
    binary_bufs_sub .., nullary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., unary_bufs_sub .., binary_bufs_sub .., ternary_bufs_sub .., nullary_bufs_sub ..,
    unary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., reshape_bufs_sub ..⟩

/-- Every operation of the pairwise part touches TensorCore buffers only. -/
theorem opsPair_sub : (opsPair : List (HloOp τ sig (Elt F))).Forall fun op => op.bufs ⊆ tcRefs τ sig :=
  ⟨
    binary_bufs_sub .., nullary_bufs_sub .., binary_bufs_sub .., unary_bufs_sub .., binary_bufs_sub .., nullary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., unary_bufs_sub ..,
    binary_bufs_sub .., unary_bufs_sub .., binary_bufs_sub .., unary_bufs_sub .., unary_bufs_sub .., binary_bufs_sub ..,
    unary_bufs_sub .., nullary_bufs_sub .., unary_bufs_sub .., binary_bufs_sub .., unary_bufs_sub .., unary_bufs_sub ..,
    unary_bufs_sub .., binary_bufs_sub .., binary_bufs_sub .., unary_bufs_sub .., unary_bufs_sub .., binary_bufs_sub ..,
    unary_bufs_sub .., binary_bufs_sub ..⟩

theorem ops_sub : (ops : List (HloOp τ sig (Elt F))).Forall fun op => op.bufs ⊆ tcRefs τ sig :=
  Cert.LibAfter.forall_append opsScale_sub opsPair_sub

/-- No operation allocates: each determines its results. -/
theorem opsScale_fresh : (opsScale : List (HloOp τ sig (Elt F))).Forall fun op => op.fresh = ∅ := by
  simp only [opsScale, seluOps, softplusOps, List.cons_append, List.nil_append, List.Forall]; repeat' constructor

theorem opsPair_fresh : (opsPair : List (HloOp τ sig (Elt F))).Forall fun op => op.fresh = ∅ := by
  simp only [opsPair, List.Forall]; repeat' constructor

theorem ops_fresh : ∀ op ∈ (ops : List (HloOp τ sig (Elt F))), op.fresh = ∅ :=
  List.forall_iff_forall_mem.1 (Cert.LibAfter.forall_append opsScale_fresh opsPair_fresh)

/-- From any memory with zero counters, every weakly fair execution of @main terminates, and every final
    state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ (fun _ => ops_fresh)

end Cert.ReferenceIdeal.RefRun

end
-- ==== Proof.HostScale.lean ====
/-
  The per-point lengthscale, as one function of the points and the four parameter arrays:
      scale pts = softplus (selu (pts · W1ᵀ + b1) · W2ᵀ + b2), reshaped from a column to a vector,
  with jax's own formulas for the two activations —
      elu h      = h where h > 0, else α · expm1 (h with its positive entries replaced by 0),
      selu h     = λ · elu h,
      softplus z = max z 0 + log1p (exp (-|z - 0|)), and z + 0 where z - 0 differs from itself —
  and the squared norm of each point, a vector as a column, a vector as a row.
  Both programs compute these by the same host operations; nothing here opens them. The
  reference's chain of 88 operations leaves `scale` of `x` in `%12` and of `y` in `%25`.
-/
import proofs.«172669_j19224273617254_1_alg».proof.Proof.RefRun

noncomputable section

namespace Cert.ReferenceIdeal.Scale

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- `pts · W1ᵀ + b1`: the first layer's pre-activation, [8192, 64]. -/
def layer1 (pts : FVec F S8192x3 .f32) (W1 : FVec F S64x3 .f32) (b1 : FVec F S64 .f32) : FVec F S8192x64 .f32 :=
  addf (Host.dotGeneral dot_S8192x3_S3x64_S8192x64_1_0_0_1_n_n none pts (transpose S3x64 [1, 0] W1 transposes_S64x3_S3x64_1_0))
    (broadcastInDim S8192x64 ![0, 1] bcast_S1x64_S8192x64_0_1 (broadcastInDim S1x64 ![1] bcast_S64_S1x64_1 b1))

/-- A scalar constant over the [8192, 64] shape. -/
def splat64 (w : BitVec 32) : FVec F S8192x64 .f32 :=
  broadcastInDim S8192x64 ![] bcast_S_S8192x64 (constant S_ .f32 w)

/-- jax's `elu` with the scale `α = 1.67326319`. -/
def elu (h : FVec F S8192x64 .f32) : FVec F S8192x64 .f32 :=
  select (cmpf .ogt h (splat64 0x00000000#32)) h
    (mulf (broadcastInDim S8192x64 ![] bcast_S_S8192x64 (id (constant S_ .f32 0x3FD62D7D#32)))
      (Host.expm1 (select (cmpf .ogt h (splat64 0x00000000#32))
        (broadcastInDim S8192x64 ![] bcast_S_S8192x64 (id (constant S_ .f32 0x00000000#32))) h)))

/-- jax's `selu`: `λ · elu`, `λ = 1.05070102`. -/
def selu (h : FVec F S8192x64 .f32) : FVec F S8192x64 .f32 :=
  mulf (splat64 0x3F867D5F#32) (elu h)

/-- `a · W2ᵀ + b2`: the second layer's pre-activation, a column [8192, 1]. -/
def layer2 (a : FVec F S8192x64 .f32) (W2 : FVec F S1x64 .f32) (b2 : FVec F S1 .f32) : FVec F S8192x1 .f32 :=
  addf (Host.dotGeneral dot_S8192x64_S64x1_S8192x1_1_0_0_1_n_n none a (transpose S64x1 [1, 0] W2 transposes_S1x64_S64x1_1_0))
    (broadcastInDim S8192x1 ![0, 1] bcast_S1x1_S8192x1_0_1 (broadcastInDim S1x1 ![1] bcast_S1_S1x1_1 b2))

/-- The zero column. -/
def zero1 : FVec F S8192x1 .f32 := broadcastInDim S8192x1 ![] bcast_S_S8192x1 (constant S_ .f32 0x00000000#32)

/-- jax's `softplus` (`logaddexp z 0`). -/
def softplus (z : FVec F S8192x1 .f32) : FVec F S8192x1 .f32 :=
  select (cmpf .une (subf z zero1) (subf z zero1)) (addf z zero1)
    (addf (maximumf z zero1) (Host.log1p (Host.exp (Host.negf (Host.absf (subf z zero1))))))

/-- The lengthscale of every point, a vector [8192]. -/
def scale (pts : FVec F S8192x3 .f32) (W1 : FVec F S64x3 .f32) (b1 : FVec F S64 .f32) (W2 : FVec F S1x64 .f32)
    (b2 : FVec F S1 .f32) : FVec F S8192 .f32 :=
  shapeCast S8192 (softplus (layer2 (selu (layer1 pts W1 b1)) W2 b2)) shapeCasts_S8192x1_S8192

/-- The squared norm of every point: the sum over the three coordinates of the squares, from zero. -/
def sqnorm (pts : FVec F S8192x3 .f32) : FVec F S8192 .f32 :=
  Host.reduceAdd (mulf pts pts) (constant S_ .f32 0x00000000#32) reducesTo_S8192x3_S8192_d1 h_S_

/-- A vector as a column [8192, 1]. -/
def col (v : FVec F S8192 .f32) : FVec F S8192x1 .f32 := broadcastInDim S8192x1 ![0] bcast_S8192_S8192x1_0 v

/-- A vector as a row [1, 8192]. -/
def row (v : FVec F S8192 .f32) : FVec F S1x8192 .f32 := broadcastInDim S1x8192 ![1] bcast_S8192_S1x8192_1 v

set_option maxHeartbeats 4000000 in
/-- The chain leaves the lengthscales of `x`'s rows in `%12`. -/
theorem scale_x (V : Valuation τ sig (Elt F)) :
    after (opsScale (F := F)) V (main_v12 : DevRef τ sig)
      = scale (V (main_arg0 : DevRef τ sig)) (V (main_arg2 : DevRef τ sig)) (V (main_arg3 : DevRef τ sig))
          (V (main_arg4 : DevRef τ sig)) (V (main_arg5 : DevRef τ sig)) := by
  simp only [opsScale, seluOps, softplusOps, List.cons_append, List.nil_append]
  after_results_simp
  rfl

set_option maxHeartbeats 4000000 in
/-- The chain leaves the lengthscales of `y`'s rows in `%25`. -/
theorem scale_y (V : Valuation τ sig (Elt F)) :
    after (opsScale (F := F)) V (main_v25 : DevRef τ sig)
      = scale (V (main_arg1 : DevRef τ sig)) (V (main_arg2 : DevRef τ sig)) (V (main_arg3 : DevRef τ sig))
          (V (main_arg4 : DevRef τ sig)) (V (main_arg5 : DevRef τ sig)) := by
  simp only [opsScale, seluOps, softplusOps, List.cons_append, List.nil_append]
  after_results_simp
  rfl

set_option maxHeartbeats 4000000 in
/-- The chain writes neither point set. -/
theorem kept_x (V : Valuation τ sig (Elt F)) :
    after (opsScale (F := F)) V (main_arg0 : DevRef τ sig) = V (main_arg0 : DevRef τ sig) := by
  simp only [opsScale, seluOps, softplusOps, List.cons_append, List.nil_append]
  after_results_simp

set_option maxHeartbeats 4000000 in
theorem kept_y (V : Valuation τ sig (Elt F)) :
    after (opsScale (F := F)) V (main_arg1 : DevRef τ sig) = V (main_arg1 : DevRef τ sig) := by
  simp only [opsScale, seluOps, softplusOps, List.cons_append, List.nil_append]
  after_results_simp

end Cert.ReferenceIdeal.Scale

end
-- ==== Proof.Spec.lean ====
/-
  The pairwise matrix, one entry at a time.

  With `xx = ‖x_i‖²`, `yy = ‖y_j‖²`, the two lengthscales `sx`, `sy` and the inner product
  `d = ⟨x_i, y_j⟩`, entry `(i, j)` is
      sqrt (2·sx·sy / (sx² + sy²)) · exp (-(xx + yy - 2·d) / (sx² + sy²))
  on the extended reals, every operation the exact one. The kernel computes the exponent's
  numerator as `0 - (xx + yy - 2·d)`, the reference as the negation: on the extended reals
  `0 - a = 0 + (-a) = -a` for every `a`, the infinities included.
-/
import Idealize.ShloMosaic.PureOps.Ideal
import Idealize.ShloMosaic.Lib.ValueIdx

noncomputable section

namespace Cert.Spec

open Idealize.ShloMosaic Idealize.ShloMosaic.ValueIdx

/-- The float literal `2.0`, as the extended real its pattern denotes. -/
abbrev two : EReal := Ideal.ofBits .f32 0x40000000#32

/-- One entry of the matrix. -/
def cell (xx yy sx sy d : EReal) : EReal :=
  Ideal.sqrt (Ideal.div (two * sx * sy) (sx * sx + sy * sy))
    * Ideal.exp (Ideal.div (-(xx + yy - two * d)) (sx * sx + sy * sy))

/-- Subtracting from zero is negating, on all of the extended reals. -/
theorem zero_sub_eq_neg (a : EReal) : (0 : EReal) - a = -a := by
  rw [sub_eq_add_neg, zero_add]

/-- The whole matrix from the two point sets, the squared norms as a column and a row, and the
    lengthscales as a column and a row: entry `(p, q)`. -/
def entry (x y : (⟨2, ![8192, 3]⟩ : Shape).Idx → EReal)
    (xx sx : (⟨2, ![8192, 1]⟩ : Shape).Idx → EReal) (yy sy : (⟨2, ![1, 8192]⟩ : Shape).Idx → EReal)
    (p q : Fin 8192) : EReal :=
  cell (xx (ix2 p 0)) (yy (ix2 0 q)) (sx (ix2 p 0)) (sy (ix2 0 q)) (∑ a : Fin 3, x (ix2 p a) * y (ix2 q a))

/-- The matrix as one function of the array index. -/
def K (x y : (⟨2, ![8192, 3]⟩ : Shape).Idx → EReal)
    (xx sx : (⟨2, ![8192, 1]⟩ : Shape).Idx → EReal) (yy sy : (⟨2, ![1, 8192]⟩ : Shape).Idx → EReal) :
    (⟨2, ![8192, 8192]⟩ : Shape).Idx → EReal :=
  fun i => entry x y xx sx yy sy (i 0) (i 1)

theorem K_ix2 (x y : (⟨2, ![8192, 3]⟩ : Shape).Idx → EReal)
    (xx sx : (⟨2, ![8192, 1]⟩ : Shape).Idx → EReal) (yy sy : (⟨2, ![1, 8192]⟩ : Shape).Idx → EReal)
    (p q : Fin 8192) : K x y xx sx yy sy (ix2 p q) = entry x y xx sx yy sy p q := rfl

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.RefValue.lean ====
/-
  What the reference leaves in its result: the specification's matrix.

  From the two point sets and the two lengthscale vectors the reference's last 38 operations
  compute `sqrt (numer / denom) · exp (-(d2) / denom)` over [8192, 8192], where
      d2    = (‖x‖² as a column + ‖y‖² as a row) - 2 · (x · yᵀ),
      denom = sx² as a column + sy² as a row,
      numer = (2 · sx) as a column · sy as a row.
  Read at `(p, q)`: a column spread over the matrix reads its row's entry, a row its column's,
  the product `x · yᵀ` is the sum over the three coordinates of `x (p, a) · y (q, a)`, and the
  rest is pointwise — the specification's entry, term for term.
-/
import proofs.«172669_j19224273617254_1_alg».proof.Proof.HostScale
import proofs.«172669_j19224273617254_1_alg».proof.Proof.Spec
import proofs.«172669_j19224273617254_1_alg».proof.Proof.LibDot2
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Cert.ReferenceIdeal.Scale
open Idealize.ShloMosaic Idealize.ShloMosaic.TcCoe Idealize.SL.Sem Idealize.ShloMosaic.StableHlo Idealize.ShloMosaic.ValueIdx

/-! ## The tail as one term -/

section Term
variable {F : FTy → Type} [FloatOps F]

/-- A column spread over the matrix. -/
def big0 (c : FVec F S8192x1 .f32) : FVec F S8192x8192 .f32 :=
  broadcastInDim S8192x8192 ![0, 1] bcast_S8192x1_S8192x8192_0_1 c
/-- A row spread over the matrix. -/
def big1 (r : FVec F S1x8192 .f32) : FVec F S8192x8192 .f32 :=
  broadcastInDim S8192x8192 ![0, 1] bcast_S1x8192_S8192x8192_0_1 r
/-- `x · yᵀ`. -/
def gram (x y : FVec F S8192x3 .f32) : FVec F S8192x8192 .f32 :=
  Host.dotGeneral dot_S8192x3_S3x8192_S8192x8192_1_0_0_1_n_n none x (transpose S3x8192 [1, 0] y transposes_S8192x3_S3x8192_1_0)
/-- The squared distances by the norm expansion. -/
def d2 (x y : FVec F S8192x3 .f32) : FVec F S8192x8192 .f32 :=
  subf (addf (big0 (col (sqnorm x))) (big1 (row (sqnorm y))))
    (mulf (broadcastInDim S8192x8192 ![] bcast_S_S8192x8192 (constant S_ .f32 0x40000000#32)) (gram x y))
/-- `sx² + sy²`. -/
def denom (sx sy : FVec F S8192 .f32) : FVec F S8192x8192 .f32 :=
  addf (big0 (mulf (col sx) (col sx))) (big1 (mulf (row sy) (row sy)))
/-- `(2 · sx) · sy`. -/
def numer (sx sy : FVec F S8192 .f32) : FVec F S8192x8192 .f32 :=
  mulf (big0 (mulf (broadcastInDim S8192x1 ![] bcast_S_S8192x1 (constant S_ .f32 0x40000000#32)) (col sx))) (big1 (row sy))
/-- The result matrix. -/
def pairFn (x y : FVec F S8192x3 .f32) (sx sy : FVec F S8192 .f32) : FVec F S8192x8192 .f32 :=
  mulf (Host.sqrt (Host.divf (numer sx sy) (denom sx sy))) (Host.exp (Host.divf (Host.negf (d2 x y)) (denom sx sy)))

set_option maxHeartbeats 4000000 in
/-- The last 38 operations leave `pairFn` of the point sets and of what `%12`, `%25` hold. -/
theorem pair_term (W : Valuation τ sig (Elt F)) :
    after (opsPair (F := F)) W (main_v59 : DevRef τ sig)
      = pairFn (W (main_arg0 : DevRef τ sig)) (W (main_arg1 : DevRef τ sig)) (W (main_v12 : DevRef τ sig)) (W (main_v25 : DevRef τ sig)) := by
  after_results_simp
  rfl

set_option maxHeartbeats 4000000 in
/-- No operation writes an argument. -/
theorem kept (V : Valuation τ sig (Elt F)) :
    after (ops (F := F)) V (main_arg0 : DevRef τ sig) = V (main_arg0 : DevRef τ sig)
    ∧ after (ops (F := F)) V (main_arg1 : DevRef τ sig) = V (main_arg1 : DevRef τ sig)
    ∧ after (ops (F := F)) V (main_arg2 : DevRef τ sig) = V (main_arg2 : DevRef τ sig)
    ∧ after (ops (F := F)) V (main_arg3 : DevRef τ sig) = V (main_arg3 : DevRef τ sig)
    ∧ after (ops (F := F)) V (main_arg4 : DevRef τ sig) = V (main_arg4 : DevRef τ sig)
    ∧ after (ops (F := F)) V (main_arg5 : DevRef τ sig) = V (main_arg5 : DevRef τ sig) := by
  simp only [ops, opsScale, opsPair, seluOps, softplusOps, List.cons_append, List.nil_append]
  refine ⟨?_, ?_, ?_, ?_, ?_, ?_⟩ <;> after_results_simp

end Term

/-! ## The product's operand indices, axis by axis -/

theorem lhs_0 (i : S8192x8192.Idx) (q : dot_S8192x3_S3x8192_S8192x8192_1_0_0_1_n_n.contr.Idx) :
    (dot_S8192x3_S3x8192_S8192x8192_1_0_0_1_n_n.lhsIdx i q 0).val = (i 0).val := by
  unfold DotDims.lhsIdx
  rw [dif_neg (show ¬(0 : Fin S8192x3.rank) ∈ dot_S8192x3_S3x8192_S8192x8192_1_0_0_1_n_n.lhsBatch by decide),
    dif_pos (show (0 : Fin S8192x3.rank) ∈ dot_S8192x3_S3x8192_S8192x8192_1_0_0_1_n_n.lhsNonContracting by decide)]
  rfl

theorem lhs_1 (i : S8192x8192.Idx) (q : dot_S8192x3_S3x8192_S8192x8192_1_0_0_1_n_n.contr.Idx) :
    (dot_S8192x3_S3x8192_S8192x8192_1_0_0_1_n_n.lhsIdx i q 1).val = (q ⟨0, by decide⟩).val :=
  dot_S8192x3_S3x8192_S8192x8192_1_0_0_1_n_n.lhsIdx_val_of_single rfl i q

theorem rhs_0 (i : S8192x8192.Idx) (q : dot_S8192x3_S3x8192_S8192x8192_1_0_0_1_n_n.contr.Idx) :
    (dot_S8192x3_S3x8192_S8192x8192_1_0_0_1_n_n.rhsIdx i q 0).val = (q ⟨0, by decide⟩).val :=
  dot_S8192x3_S3x8192_S8192x8192_1_0_0_1_n_n.rhsIdx_val_of_single rfl i q

theorem rhs_1 (i : S8192x8192.Idx) (q : dot_S8192x3_S3x8192_S8192x8192_1_0_0_1_n_n.contr.Idx) :
    (dot_S8192x3_S3x8192_S8192x8192_1_0_0_1_n_n.rhsIdx i q 1).val = (i 1).val := by
  unfold DotDims.rhsIdx
  rw [dif_neg (show ¬(1 : Fin S3x8192.rank) ∈ dot_S8192x3_S3x8192_S8192x8192_1_0_0_1_n_n.rhsBatch by decide),
    dif_pos (show (1 : Fin S3x8192.rank) ∈ dot_S8192x3_S3x8192_S8192x8192_1_0_0_1_n_n.rhsNonContracting by decide)]
  rfl

/-! ## The tail at an entry -/

/-- `x · yᵀ` at `(p, q)`: the inner product of row `p` of `x` and row `q` of `y`. -/
theorem gram_at (x y : FVec Ideal S8192x3 .f32) (p q : Fin 8192) :
    gram x y (ix2 p q) = ∑ a : Fin 3, x (ix2 p a) * y (ix2 q a) := by
  unfold gram
  show FloatOps.dotGeneral dot_S8192x3_S3x8192_S8192x8192_1_0_0_1_n_n none .single x (transpose S3x8192 [1, 0] y transposes_S8192x3_S3x8192_1_0) (ix2 p q) = _
  rw [Ideal.dotGeneral_apply,
    Cert.Lib.Dot2.contraction_ix2 dot_S8192x3_S3x8192_S8192x8192_1_0_0_1_n_n rfl rfl lhs_0 lhs_1 rhs_0 rhs_1 x
      (transpose S3x8192 [1, 0] y transposes_S8192x3_S3x8192_1_0) p q]
  refine Finset.sum_congr rfl fun a _ => ?_
  rw [transpose_apply [1, 0] y transposes_S8192x3_S3x8192_1_0 (ix2 a q) (ix2 q a) (fun b => by
    match b with
    | ⟨0, _⟩ => rfl
    | ⟨1, _⟩ => rfl)]

theorem big0_at (c : FVec Ideal S8192x1 .f32) (p q : Fin 8192) : big0 c (ix2 p q) = c (ix2 p 0) := by
  unfold big0
  exact broadcastInDim_apply ![0, 1] bcast_S8192x1_S8192x8192_0_1 c (ix2 p q) (ix2 p 0) (fun a => by
    match a with
    | ⟨0, _⟩ => rfl
    | ⟨1, _⟩ => rfl)

theorem big1_at (r : FVec Ideal S1x8192 .f32) (p q : Fin 8192) : big1 r (ix2 p q) = r (ix2 0 q) := by
  unfold big1
  exact broadcastInDim_apply ![0, 1] bcast_S1x8192_S8192x8192_0_1 r (ix2 p q) (ix2 0 q) (fun a => by
    match a with
    | ⟨0, _⟩ => rfl
    | ⟨1, _⟩ => rfl)

/-- The literal `2.0` over the matrix is `2.0` at every entry. -/
theorem two_mat :
    broadcastInDim S8192x8192 ![] bcast_S_S8192x8192 (constant (F := Ideal) S_ .f32 0x40000000#32)
      = fun _ => Cert.Spec.two :=
  funext fun j => broadcastInDim_apply ![] bcast_S_S8192x8192 (constant (F := Ideal) S_ .f32 0x40000000#32) j
    (fun a => a.elim0) (fun a => a.elim0)

/-- The literal `2.0` over a column likewise. -/
theorem two_col :
    broadcastInDim S8192x1 ![] bcast_S_S8192x1 (constant (F := Ideal) S_ .f32 0x40000000#32)
      = fun _ => Cert.Spec.two :=
  funext fun j => broadcastInDim_apply ![] bcast_S_S8192x1 (constant (F := Ideal) S_ .f32 0x40000000#32) j
    (fun a => a.elim0) (fun a => a.elim0)

theorem hdivf_at {s : Shape} (a b : FVec Ideal s .f32) (i : s.Idx) : Host.divf a b i = Ideal.div (a i) (b i) := rfl
theorem hsqrt_at {s : Shape} (a : FVec Ideal s .f32) (i : s.Idx) : Host.sqrt a i = Ideal.sqrt (a i) := rfl
theorem hexp_at {s : Shape} (a : FVec Ideal s .f32) (i : s.Idx) : Host.exp a i = Ideal.exp (a i) := rfl
theorem hnegf_at {s : Shape} (a : FVec Ideal s .f32) (i : s.Idx) : Host.negf a i = -(a i) := rfl

/-- The result matrix at `(p, q)` is the specification's entry. -/
theorem pair_at (x y : FVec Ideal S8192x3 .f32) (sx sy : FVec Ideal S8192 .f32) (p q : Fin 8192) :
    pairFn x y sx sy (ix2 p q)
      = Cert.Spec.entry x y (col (sqnorm x)) (col sx) (row (sqnorm y)) (row sy) p q := by
  unfold pairFn numer denom d2 Cert.Spec.entry Cert.Spec.cell
  simp only [mulf_apply, addf_apply, subf_apply, hdivf_at, hsqrt_at, hexp_at, hnegf_at, big0_at, big1_at, gram_at]
  rw [two_mat, two_col]

/-! ## The run -/

/-- The reference's result buffer after @main's operations, from any contents `V`. -/
theorem final (V : Valuation τ sig (Elt Ideal)) :
    after (ops (F := Ideal)) V (main_v59 : DevRef τ sig)
      = Cert.Spec.K (V (main_arg0 : DevRef τ sig)) (V (main_arg1 : DevRef τ sig))
          (col (F := Ideal) (sqnorm (V (main_arg0 : DevRef τ sig))))
          (col (F := Ideal) (scale (V (main_arg0 : DevRef τ sig)) (V (main_arg2 : DevRef τ sig)) (V (main_arg3 : DevRef τ sig)) (V (main_arg4 : DevRef τ sig)) (V (main_arg5 : DevRef τ sig))))
          (row (F := Ideal) (sqnorm (V (main_arg1 : DevRef τ sig))))
          (row (F := Ideal) (scale (V (main_arg1 : DevRef τ sig)) (V (main_arg2 : DevRef τ sig)) (V (main_arg3 : DevRef τ sig)) (V (main_arg4 : DevRef τ sig)) (V (main_arg5 : DevRef τ sig)))) := by
  show after (opsScale ++ opsPair) V (main_v59 : DevRef τ sig) = _
  rw [Cert.LibAfter.after_append, pair_term, scale_x, scale_y, kept_x, kept_y]
  funext i
  obtain ⟨p, q, rfl⟩ : ∃ (p q : Fin 8192), i = ix2 p q := ⟨i 0, i 1, eq_ix2 i⟩
  rw [pair_at]
  rfl

/-- Every weakly fair execution of the reference terminates with its result at the specification's matrix
    of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = Cert.Spec.K (m ((c.tc : Thread nD τ).loc main_arg0)) (m ((c.tc : Thread nD τ).loc main_arg1))
            (col (F := Ideal) (sqnorm (m ((c.tc : Thread nD τ).loc main_arg0)))) (col (F := Ideal) (scale (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))))
            (row (F := Ideal) (sqnorm (m ((c.tc : Thread nD τ).loc main_arg1)))) (row (F := Ideal) (scale (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨(h c main_v59).trans (final (launchContents m c)),
        (h c main_arg0).trans (kept (launchContents m c)).1,
        (h c main_arg1).trans (kept (launchContents m c)).2.1,
        (h c main_arg2).trans (kept (launchContents m c)).2.2.1,
        (h c main_arg3).trans (kept (launchContents m c)).2.2.2.1,
        (h c main_arg4).trans (kept (launchContents m c)).2.2.2.2.1,
        (h c main_arg5).trans (kept (launchContents m c)).2.2.2.2.2⟩)
    (run_main m ρ)

end Cert.ReferenceIdeal.RefValue

end
-- ==== Proof.LibDot2T.lean ====
/-
  A matrix product with the right operand transposed, at the ideal instance, read at an entry.

  For two rank-2 operands of shapes [M, K] and [N, K] whose dimension numbers contract the
  second axis of both, the product into a zero accumulator is, at row `p` and column `j`, the
  plain sum over `a : Fin K` of `l (p, a) * r (j, a)` on the extended reals. The dimension
  numbers enter only through four coordinate facts (which coordinate of each operand is the
  output's and which is the contracted one); a caller proves those four for its own record.
-/
import Idealize.ShloMosaic.Lib.ValueIdx
import Idealize.ShloMosaic.PureOps.Ideal.Laws

noncomputable section

namespace Cert.Lib.Dot2T

open Idealize.ShloMosaic Idealize.ShloMosaic.ValueIdx

/-- The contraction sum re-indexed from the record's one-axis contraction index to `Fin K`: the left
    operand is read along row `p`, the right along ITS row `j`. -/
theorem contraction_ix2 {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product with the right operand transposed, into the zero accumulator, read at `(p, j)`. -/
theorem matmul_zero_ix2 {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2T

end
-- ==== Proof.KernelPay.lean ====
/-
  The kernel body's stored value, read at one entry of the output tile.

  At row `p` and column `q` of a [1024, 1024] tile the body computes, from the tile's rows of
  `x` and `y` (three coordinates each), the column entries `xx p`, `sx p` and the row entries
  `yy q`, `sy q`:  the inner product `∑ₐ x (p, a) · y (q, a)` (a matrix product into the zero
  accumulator, the right operand contracted along its second axis), then
      sqrt (2·sx·sy / (sx² + sy²)) · exp ((0 - (xx + yy - 2·d)) / (sx² + sy²)),
  which is the specification's entry because `0 - a = -a` on the extended reals.
-/
import proofs.«172669_j19224273617254_1_alg».proof.Proof.Gen.KernelIdeal.Skeleton
import proofs.«172669_j19224273617254_1_alg».proof.Proof.Spec
import proofs.«172669_j19224273617254_1_alg».proof.Proof.LibDot2T
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## The matrix product's operand indices, axis by axis -/

theorem lhs_0 (i : S1024x1024.Idx) (q : dot_S1024x3_S1024x3_S1024x1024_1_1_0_0_n_n.contr.Idx) :
    (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl

theorem lhs_1 (i : S1024x1024.Idx) (q : dot_S1024x3_S1024x3_S1024x1024_1_1_0_0_n_n.contr.Idx) :
    (dot_S1024x3_S1024x3_S1024x1024_1_1_0_0_n_n.lhsIdx i q 1).val = (q ⟨0, by decide⟩).val :=
  dot_S1024x3_S1024x3_S1024x1024_1_1_0_0_n_n.lhsIdx_val_of_single rfl i q

theorem rhs_0 (i : S1024x1024.Idx) (q : dot_S1024x3_S1024x3_S1024x1024_1_1_0_0_n_n.contr.Idx) :
    (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl

theorem rhs_1 (i : S1024x1024.Idx) (q : dot_S1024x3_S1024x3_S1024x1024_1_1_0_0_n_n.contr.Idx) :
    (dot_S1024x3_S1024x3_S1024x1024_1_1_0_0_n_n.rhsIdx i q 1).val = (q ⟨0, by decide⟩).val :=
  dot_S1024x3_S1024x3_S1024x1024_1_1_0_0_n_n.rhsIdx_val_of_single rfl i q

/-- The tile's inner products: row `p` of the first operand against row `q` of the second. -/
theorem dot_at (x0 x1 : FVec Ideal S1024x3 .f32) (p q : Fin 1024) :
    matmul dot_S1024x3_S1024x3_S1024x1024_1_1_0_0_n_n (some .fp32) x0 x1 (constant (F := Ideal) S1024x1024 .f32 0x00000000#32) (ix2 p q)
      = ∑ a : Fin 3, x0 (ix2 p a) * x1 (ix2 q a) :=
  Cert.Lib.Dot2T.matmul_zero_ix2 dot_S1024x3_S1024x3_S1024x1024_1_1_0_0_n_n (some .fp32) rfl rfl lhs_0 lhs_1 rhs_0 rhs_1 x0 x1 p q

/-! ## A column and a row spread over the tile -/

/-- A [1024, 1] column broadcast to the tile reads its row's entry. -/
theorem col_at (v : FVec Ideal S1024x1 .f32) (p q : Fin 1024) :
    broadcastTo S1024x1024 v broadcasts_S1024x1_S1024x1024 (ix2 p q) = v (ix2 p 0) :=
  broadcastTo_apply v broadcasts_S1024x1_S1024x1024 (ix2 p q) (ix2 p 0) (fun a => by
    match a with
    | ⟨0, _⟩ => rfl
    | ⟨1, _⟩ => rfl)

/-- A [1, 1024] row broadcast to the tile reads its column's entry. -/
theorem row_at (v : FVec Ideal S1x1024 .f32) (p q : Fin 1024) :
    broadcastTo S1024x1024 v broadcasts_S1x1024_S1024x1024 (ix2 p q) = v (ix2 0 q) :=
  broadcastTo_apply v broadcasts_S1x1024_S1024x1024 (ix2 p q) (ix2 0 q) (fun a => by
    match a with
    | ⟨0, _⟩ => rfl
    | ⟨1, _⟩ => rfl)

theorem sqrt_at {s : Shape} (a : FVec Ideal s .f32) (i : s.Idx) : sqrt a i = Ideal.sqrt (a i) := rfl
theorem exp_at {s : Shape} (a : FVec Ideal s .f32) (i : s.Idx) : exp a i = Ideal.exp (a i) := rfl

/-! ## The stored value at an entry -/

/-- The body's stored tile at `(p, q)` is the specification's entry of the loaded blocks' entries. -/
theorem pay_at (x0 x1 : FVec Ideal S1024x3 .f32) (x2 : FVec Ideal S1024x1 .f32) (x3 : FVec Ideal S1x1024 .f32)
    (x4 : FVec Ideal S1024x1 .f32) (x5 : FVec Ideal S1x1024 .f32) (p q : Fin 1024) :
    k0_pay1 (F := Ideal) x0 x1 x2 x3 x4 x5 (ix2 p q)
      = Cert.Spec.cell (x2 (ix2 p 0)) (x3 (ix2 0 q)) (x4 (ix2 p 0)) (x5 (ix2 0 q))
          (∑ a : Fin 3, x0 (ix2 p a) * x1 (ix2 q a)) := by
  unfold k0_pay1 Cert.Spec.cell
  simp only [mulf_apply, addf_apply, subf_apply, divf_apply, sqrt_at, exp_at, broadcast_apply, col_at, row_at,
    shapeCast_self, dot_at]
  show Ideal.sqrt (Ideal.div (Ideal.ofBits .f32 0x40000000#32 * x4 (ix2 p 0) * x5 (ix2 0 q))
        (x4 (ix2 p 0) * x4 (ix2 p 0) + x5 (ix2 0 q) * x5 (ix2 0 q)))
      * Ideal.exp (Ideal.div (Ideal.ofBits .f32 0x00000000#32
          - (x2 (ix2 p 0) + x3 (ix2 0 q) - Ideal.ofBits .f32 0x40000000#32 * ∑ a : Fin 3, x0 (ix2 p a) * x1 (ix2 q a)))
        (x4 (ix2 p 0) * x4 (ix2 p 0) + x5 (ix2 0 q) * x5 (ix2 0 q))) = _
  rw [Ideal.ofBits_zero_f32, Cert.Spec.zero_sub_eq_neg]

end Cert.KernelIdeal.Pay

end
-- ==== Proof.KernelFinal.lean ====
/-
  What the kernel leaves in its result: the specification's matrix of the arrays the region finds.

  The grid is 8 × 8 and point `t = (I, J)` owns the [1024, 1024] tile at block `(I, J)` of the
  [8192, 8192] result. Its input blocks are rows `1024·I …` of `x`, of the squared-norm column and of
  the lengthscale column, and rows `1024·J …` of `y`, columns `1024·J …` of the squared-norm row and of
  the lengthscale row. So entry `(r, s)` of the tile the point writes back is the specification's
  entry `(1024·I + r, 1024·J + s)` — the body's stored value at an entry (`pay_idx`), with every block
  entry read where the tile's index says. The 64 tiles cover the result, so the array ends at
  the specification's matrix.
-/
import proofs.«172669_j19224273617254_1_alg».proof.Proof.Gen.KernelIdeal.Value
import proofs.«172669_j19224273617254_1_alg».proof.Proof.KernelPay
import proofs.«172669_j19224273617254_1_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Each input window's block index, against the output tile's `(I, J)`: `x`, the squared-norm column and
    the lengthscale column move with `I`; `y`, the squared-norm row and the lengthscale row with `J`. -/
theorem idx_in : ∀ t : Fin cfg0.N,
      win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = win0_6.index t (1 : Fin 2)
    ∧ win0_4.index t (0 : Fin 2) = win0_6.index t (0 : Fin 2) ∧ win0_4.index t (1 : Fin 2) = 0
    ∧ win0_5.index t (0 : Fin 2) = 0 ∧ win0_5.index t (1 : Fin 2) = win0_6.index t (1 : Fin 2) :=
  (by decide +kernel : ∀ t : Fin grid0.N, _)

/-- The output tile's block indices stay below 8. -/
theorem idx_bd : ∀ t : Fin cfg0.N, win0_6.index t (0 : Fin 2) ≤ 7 ∧ win0_6.index t (1 : Fin 2) ≤ 7 :=
  (by decide +kernel : ∀ t : Fin grid0.N, _)

/-- Every tile of the 8 × 8 box is some point's. -/
theorem idx_onto : ∀ (q0 : Fin 8) (q1 : Fin 8), ∃ t : Fin cfg0.N, win0_6.index t = ![q0.val, q1.val] :=
  (by decide +kernel : ∀ (q0 : Fin 8) (q1 : Fin 8), ∃ t : Fin grid0.N, win0_6.index t = ![q0.val, q1.val])

/-- The array row that row `r` of point `t`'s tile is. -/
def rowOf (t : Fin cfg0.N) (r : Fin 1024) : Fin 8192 :=
  ⟨win0_6.index t (0 : Fin 2) * 1024 + r.val, by have := (idx_bd t).1; have := r.isLt; omega⟩

/-- The array column that column `s` of point `t`'s tile is. -/
def colOf (t : Fin cfg0.N) (s : Fin 1024) : Fin 8192 :=
  ⟨win0_6.index t (1 : Fin 2) * 1024 + s.val, by have := (idx_bd t).2; have := s.isLt; omega⟩

/-! ## Each block, read off its array -/

/-- The point's six input blocks, at their literal shapes. -/
abbrev bx (c : Dev nD) (t : Fin cfg0.N) : FVec Ideal S1024x3 .f32 := iblk m c 0 t
abbrev bY (c : Dev nD) (t : Fin cfg0.N) : FVec Ideal S1024x3 .f32 := iblk m c 1 t
abbrev bxx (c : Dev nD) (t : Fin cfg0.N) : FVec Ideal S1024x1 .f32 := iblk m c 2 t
abbrev byy (c : Dev nD) (t : Fin cfg0.N) : FVec Ideal S1x1024 .f32 := iblk m c 3 t
abbrev bsx (c : Dev nD) (t : Fin cfg0.N) : FVec Ideal S1024x1 .f32 := iblk m c 4 t
abbrev bsy (c : Dev nD) (t : Fin cfg0.N) : FVec Ideal S1x1024 .f32 := iblk m c 5 t

/-- Row `r` of the `x` block is row `rowOf t r` of `x`. -/
theorem blk_x (c : Dev nD) (t : Fin cfg0.N) (r : Fin 1024) (a : Fin 3) :
    bx m c t (ix2 r a) = (V m c main_arg0 : S8192x3.Idx → EReal) (ix2 (rowOf t r) a) := by
  obtain ⟨e0, e1, -⟩ := idx_in t
  unfold bx iblk
  rw [View.read_apply]
  refine congrArg (V m c main_arg0 : S8192x3.Idx → EReal) (funext fun d => Fin.ext ?_)
  match d with
  | ⟨0, _⟩ => show win0_0.index t (0 : Fin 2) * 1024 + 1 * r.val = win0_6.index t (0 : Fin 2) * 1024 + r.val; rw [e0]; omega
  | ⟨1, _⟩ => show win0_0.index t (1 : Fin 2) * 3 + 1 * a.val = a.val; rw [e1]; omega

/-- Row `s` of the `y` block is row `colOf t s` of `y`. -/
theorem blk_y (c : Dev nD) (t : Fin cfg0.N) (s : Fin 1024) (a : Fin 3) :
    bY m c t (ix2 s a) = (V m c main_arg1 : S8192x3.Idx → EReal) (ix2 (colOf t s) a) := by
  obtain ⟨-, -, e0, e1, -⟩ := idx_in t
  unfold bY iblk
  rw [View.read_apply]
  refine congrArg (V m c main_arg1 : S8192x3.Idx → EReal) (funext fun d => Fin.ext ?_)
  match d with
  | ⟨0, _⟩ => show win0_1.index t (0 : Fin 2) * 1024 + 1 * s.val = win0_6.index t (1 : Fin 2) * 1024 + s.val; rw [e0]; omega
  | ⟨1, _⟩ => show win0_1.index t (1 : Fin 2) * 3 + 1 * a.val = a.val; rw [e1]; omega

/-- Entry `r` of the squared-norm column's block. -/
theorem blk_xx (c : Dev nD) (t : Fin cfg0.N) (r : Fin 1024) :
    bxx m c t (ix2 r 0) = (V m c main_v30 : S8192x1.Idx → EReal) (ix2 (rowOf t r) 0) := by
  obtain ⟨-, -, -, -, e0, e1, -⟩ := idx_in t
  unfold bxx iblk
  rw [View.read_apply]
  refine congrArg (V m c main_v30 : S8192x1.Idx → EReal) (funext fun d => Fin.ext ?_)
  match d with
  | ⟨0, _⟩ => show win0_2.index t (0 : Fin 2) * 1024 + 1 * r.val = win0_6.index t (0 : Fin 2) * 1024 + r.val; rw [e0]; omega
  | ⟨1, _⟩ => show win0_2.index t (1 : Fin 2) * 1 + 1 * 0 = 0; rw [e1]

/-- Entry `s` of the squared-norm row's block. -/
theorem blk_yy (c : Dev nD) (t : Fin cfg0.N) (s : Fin 1024) :
    byy m c t (ix2 0 s) = (V m c main_v32 : S1x8192.Idx → EReal) (ix2 0 (colOf t s)) := by
  obtain ⟨-, -, -, -, -, -, e0, e1, -⟩ := idx_in t
  unfold byy iblk
  rw [View.read_apply]
  refine congrArg (V m c main_v32 : S1x8192.Idx → EReal) (funext fun d => Fin.ext ?_)
  match d with
  | ⟨0, _⟩ => show win0_3.index t (0 : Fin 2) * 1 + 1 * 0 = 0; rw [e0]
  | ⟨1, _⟩ => show win0_3.index t (1 : Fin 2) * 1024 + 1 * s.val = win0_6.index t (1 : Fin 2) * 1024 + s.val; rw [e1]; omega

/-- Entry `r` of the lengthscale column's block. -/
theorem blk_sx (c : Dev nD) (t : Fin cfg0.N) (r : Fin 1024) :
    bsx m c t (ix2 r 0) = (V m c main_v31 : S8192x1.Idx → EReal) (ix2 (rowOf t r) 0) := by
  obtain ⟨-, -, -, -, -, -, -, -, e0, e1, -⟩ := idx_in t
  unfold bsx iblk
  rw [View.read_apply]
  refine congrArg (V m c main_v31 : S8192x1.Idx → EReal) (funext fun d => Fin.ext ?_)
  match d with
  | ⟨0, _⟩ => show win0_4.index t (0 : Fin 2) * 1024 + 1 * r.val = win0_6.index t (0 : Fin 2) * 1024 + r.val; rw [e0]; omega
  | ⟨1, _⟩ => show win0_4.index t (1 : Fin 2) * 1 + 1 * 0 = 0; rw [e1]

/-- Entry `s` of the lengthscale row's block. -/
theorem blk_sy (c : Dev nD) (t : Fin cfg0.N) (s : Fin 1024) :
    bsy m c t (ix2 0 s) = (V m c main_v33 : S1x8192.Idx → EReal) (ix2 0 (colOf t s)) := by
  obtain ⟨-, -, -, -, -, -, -, -, -, -, e0, e1⟩ := idx_in t
  unfold bsy iblk
  rw [View.read_apply]
  refine congrArg (V m c main_v33 : S1x8192.Idx → EReal) (funext fun d => Fin.ext ?_)
  match d with
  | ⟨0, _⟩ => show win0_5.index t (0 : Fin 2) * 1 + 1 * 0 = 0; rw [e0]
  | ⟨1, _⟩ => show win0_5.index t (1 : Fin 2) * 1024 + 1 * s.val = win0_6.index t (1 : Fin 2) * 1024 + s.val; rw [e1]; omega

/-- The array index of a tile index. -/
theorem emb6 (t : Fin cfg0.N) (j : S1024x1024.Idx) :
    (((cfg0.win 6).blk t).view.emb j : S8192x8192.Idx) = ix2 (rowOf t (j 0)) (colOf t (j 1)) :=
  funext fun d => Fin.ext (by
    match d with
    | ⟨0, _⟩ => show win0_6.index t (0 : Fin 2) * 1024 + 1 * (j 0).val = win0_6.index t (0 : Fin 2) * 1024 + (j 0).val; omega
    | ⟨1, _⟩ => show win0_6.index t (1 : Fin 2) * 1024 + 1 * (j 1).val = win0_6.index t (1 : Fin 2) * 1024 + (j 1).val; omega)

/-! ## What a point writes back -/

/-- The body's stored tile at any tile index. -/
theorem pay_idx (x0 x1 : FVec Ideal S1024x3 .f32) (x2 : FVec Ideal S1024x1 .f32) (x3 : FVec Ideal S1x1024 .f32)
    (x4 : FVec Ideal S1024x1 .f32) (x5 : FVec Ideal S1x1024 .f32) (j : S1024x1024.Idx) :
    k0_pay1 (F := Ideal) x0 x1 x2 x3 x4 x5 j
      = Cert.Spec.cell (x2 (ix2 (j 0) 0)) (x3 (ix2 0 (j 1))) (x4 (ix2 (j 0) 0)) (x5 (ix2 0 (j 1)))
          (∑ a : Fin 3, x0 (ix2 (j 0) a) * x1 (ix2 (j 1) a)) := by
  obtain ⟨p, q, rfl⟩ : ∃ (p q : Fin 1024), j = ix2 p q := ⟨j 0, j 1, eq_ix2 j⟩
  exact Cert.KernelIdeal.Pay.pay_at x0 x1 x2 x3 x4 x5 p q

/-- The specification's matrix of the arrays as the region finds them. -/
abbrev KV (c : Dev nD) : S8192x8192.Idx → EReal :=
  Cert.Spec.K (V m c main_arg0) (V m c main_arg1) (V m c main_v30) (V m c main_v31) (V m c main_v32) (V m c main_v33)

/-- The specification's entry of the point's block entries is the specification's matrix at the tile's
    place in the array. -/
theorem cell_blocks (c : Dev nD) (t : Fin cfg0.N) (p q : Fin 1024) :
    Cert.Spec.cell (bxx m c t (ix2 p 0)) (byy m c t (ix2 0 q)) (bsx m c t (ix2 p 0)) (bsy m c t (ix2 0 q))
        (∑ a : Fin 3, bx m c t (ix2 p a) * bY m c t (ix2 q a))
      = KV m c (ix2 (rowOf t p) (colOf t q)) := by
  rw [blk_xx m c t, blk_yy m c t, blk_sx m c t, blk_sy m c t]
  simp only [blk_x m c t, blk_y m c t]
  rfl

/-- WHAT POINT `t` WRITES BACK is tile `t` of the specification's matrix. -/
theorem flushed_eq (c : Dev nD) (t : Fin cfg0.N) :
    (dats m 0 c).flushed 6 t = ((cfg0.win 6).blk t).view.read (Elt Ideal) (KV m c) := by
  rw [flushed6]
  unfold out0_6
  rw [View.canon_unit_zero hz]
  simp only [View.ld_unit_zero (S := S1024x3) hz, View.ld_unit_zero (S := S1024x1) hz, View.ld_unit_zero (S := S1x1024) hz]
  funext j
  show k0_pay1 (F := Ideal) (iblk m c 0 t) (iblk m c 1 t) (iblk m c 2 t) (iblk m c 3 t) (iblk m c 4 t) (iblk m c 5 t) j
      = KV m c (((cfg0.win 6).blk t).view.emb j)
  refine (pay_idx (bx m c t) (bY m c t) (bxx m c t) (byy m c t) (bsx m c t) (bsy m c t) j).trans ?_
  rw [emb6 t j]
  exact cell_blocks m c t (j 0) (j 1)

/-! ## The cover and the final array -/

/-- An index of the array is in point `t`'s tile iff each coordinate is in the tile's range on its axis. -/
theorem mem_blk (t : Fin cfg0.N) (i : S8192x8192.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v34).slice (win0_6.rect t)).set ↔ _
  rw [View.set_slice_whole, Rect.mem_set_unit]
  exact Iff.rfl

/-- Every index of the result is in some point's tile: the one at block `(i₀ / 1024, i₁ / 1024)`. -/
theorem cover (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

/-- THE ARRAY after the run is the specification's matrix. -/
theorem final (c : Dev nD) : (dats m 0 c).arrAt 6 cfg0.N = KV m c :=
  (dats m 0 c).arrAt_eq_of_cover 6 (KV m c) (fun t _ => flushed_eq m c t) cover

/-- The frame run re-posted: the result array at the specification's matrix, the arguments unchanged. -/
theorem run : θ_run defs (onTc (τ := τ) (main (F := Ideal))) ⟨m, fun _ => 0, ρ⟩ fun r => ∀ c : Dev nD,
      r.2.mem ((c : Thread nD τ).loc main_v34) = KV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Final

end
-- ==== Proof.KernelHost.lean ====
/-
  The four small arrays the kernel's region finds, as functions of the arguments.

  Before the region the kernel's @main computes, by the same host operations as the reference,
  the squared norms of `x`'s and `y`'s rows and the lengthscales of both, and lays them out as
  a column [8192, 1] (for `x`) and a row [1, 8192] (for `y`). So the region finds
      `%30` = the squared norms of `x` as a column,   `%31` = `scale x` as a column,
      `%32` = the squared norms of `y` as a row,      `%33` = `scale y` as a row,
  with `scale`, `sqnorm`, `col`, `row` the one set of definitions both programs are read against.
-/
import proofs.«172669_j19224273617254_1_alg».proof.Proof.Gen.KernelIdeal.Frame
import proofs.«172669_j19224273617254_1_alg».proof.Proof.HostScale

noncomputable section

namespace Cert.KernelIdeal.HostV

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- `%30`: the squared norms of `x`'s rows, as a column. -/
theorem V_xx (c : Dev nD) :
    (V m c main_v30 : S8192x1.Idx → F .f32) = Cert.ReferenceIdeal.Scale.col (Cert.ReferenceIdeal.Scale.sqnorm (m ((c : Thread nD τ).loc main_arg0))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- `%32`: the squared norms of `y`'s rows, as a row. -/
theorem V_yy (c : Dev nD) :
    (V m c main_v32 : S1x8192.Idx → F .f32) = Cert.ReferenceIdeal.Scale.row (Cert.ReferenceIdeal.Scale.sqnorm (m ((c : Thread nD τ).loc main_arg1))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- `%31`: the lengthscales of `x`'s rows, as a column. -/
theorem V_sx (c : Dev nD) :
    (V m c main_v31 : S8192x1.Idx → F .f32) = Cert.ReferenceIdeal.Scale.col (Cert.ReferenceIdeal.Scale.scale (m ((c : Thread nD τ).loc main_arg0)) (m ((c : Thread nD τ).loc main_arg2)) (m ((c : Thread nD τ).loc main_arg3)) (m ((c : Thread nD τ).loc main_arg4)) (m ((c : Thread nD τ).loc main_arg5))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxHeartbeats 4000000 in
/-- `%33`: the lengthscales of `y`'s rows, as a row. -/
theorem V_sy (c : Dev nD) :
    (V m c main_v33 : S1x8192.Idx → F .f32) = Cert.ReferenceIdeal.Scale.row (Cert.ReferenceIdeal.Scale.scale (m ((c : Thread nD τ).loc main_arg1)) (m ((c : Thread nD τ).loc main_arg2)) (m ((c : Thread nD τ).loc main_arg3)) (m ((c : Thread nD τ).loc main_arg4)) (m ((c : Thread nD τ).loc main_arg5))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.HostV

end
-- ==== Proof.lean ====
/-
  The certificate of the pairwise kernel matrix
      k (i, j) = sqrt (2·sx_i·sy_j / (sx_i² + sy_j²)) · exp (-(‖x_i‖² + ‖y_j‖² - 2·⟨x_i, y_j⟩) / (sx_i² + sy_j²)),
  with `sx`, `sy` the per-point lengthscales `softplus (selu (pts·W1ᵀ + b1)·W2ᵀ + b2)`.

  Both programs compute the squared norms and the lengthscales by the same host operations
  (Proof/HostScale.lean names them once; Proof/KernelHost.lean and Proof/HostScale.lean read the two
  programs' chains against those names). The kernel then fills the [8192, 8192] result tile by tile
  on an 8 × 8 grid: a tile's entry is the specification's entry of its block entries
  (Proof/KernelPay.lean: the inner product is a matrix product into the zero accumulator, and
  `0 - a = -a` on the extended reals), the blocks are rows and columns of the arrays, and the tiles
  cover the result (Proof/KernelFinal.lean). The reference computes the same matrix by whole-array
  host operations, read entry by entry (Proof/RefRun.lean, Proof/RefValue.lean). At the ideal
  instance the two results are the specification's matrix (Proof/Spec.lean) of arguments that agree.
  The frames are the kernel's generated frame runs and the reference's run with the result dropped;
  the idealization rewrote nothing, so it preserves trivially.
-/
import proofs.«172669_j19224273617254_1_alg».proof.Defs
import proofs.«172669_j19224273617254_1_alg».proof.Proof.Gen.Kernel
import proofs.«172669_j19224273617254_1_alg».proof.Proof.Gen.Kernel.Skeleton
import proofs.«172669_j19224273617254_1_alg».proof.Proof.Gen.Kernel.Launch
import proofs.«172669_j19224273617254_1_alg».proof.Proof.Gen.Kernel.Points
import proofs.«172669_j19224273617254_1_alg».proof.Proof.Gen.Kernel.Frame
import proofs.«172669_j19224273617254_1_alg».proof.Proof.Gen.KernelIdeal
import proofs.«172669_j19224273617254_1_alg».proof.Proof.Gen.KernelIdeal.Skeleton
import proofs.«172669_j19224273617254_1_alg».proof.Proof.Gen.KernelIdeal.Launch
import proofs.«172669_j19224273617254_1_alg».proof.Proof.Gen.KernelIdeal.Points
import proofs.«172669_j19224273617254_1_alg».proof.Proof.Gen.KernelIdeal.Frame
import proofs.«172669_j19224273617254_1_alg».proof.Proof.Gen.KernelIdeal.Value
import proofs.«172669_j19224273617254_1_alg».proof.Proof.Gen.ReferenceIdeal
import proofs.«172669_j19224273617254_1_alg».proof.Proof.Gen.Pre_finite_inputs
import proofs.«172669_j19224273617254_1_alg».proof.Proof.RefValue
import proofs.«172669_j19224273617254_1_alg».proof.Proof.KernelFinal
import proofs.«172669_j19224273617254_1_alg».proof.Proof.KernelHost
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.RefValue.run m ρ)

/-- At the ideal instance the kernel's result is the specification's matrix of the arrays its region finds
    (the tiles, the cover), those arrays are the squared norms and lengthscales of the arguments (the shared
    host chain), and the reference's result is the specification's matrix of the same: equal where the
    arguments agree. -/
theorem algebraic : Cert.algebraic_KernelIdeal_ReferenceIdeal := by
  intro m ρ m' ρ' _ hagree
  refine ⟨fun c => Cert.KernelIdeal.Final.KV m c, Cert.KernelIdeal.Final.run m ρ, ?_⟩
  refine (θ_run Cert.ReferenceIdeal.defs _ _).mono (fun _ h c => ⟨(h c).1.trans ?_, (h c).2⟩) (Cert.ReferenceIdeal.RefValue.run m' ρ')
  obtain ⟨h0, h1, h2, h3, h4, h5⟩ := hagree c
  rw [h0, h1, h2, h3, h4, h5]
  show _ = Cert.Spec.K (Cert.KernelIdeal.Gen.V m c Cert.KernelIdeal.main_arg0) (Cert.KernelIdeal.Gen.V m c Cert.KernelIdeal.main_arg1)
    (Cert.KernelIdeal.Gen.V m c Cert.KernelIdeal.main_v30) (Cert.KernelIdeal.Gen.V m c Cert.KernelIdeal.main_v31)
    (Cert.KernelIdeal.Gen.V m c Cert.KernelIdeal.main_v32) (Cert.KernelIdeal.Gen.V m c Cert.KernelIdeal.main_v33)
  rw [Cert.KernelIdeal.Gen.V_main_arg0 m c, Cert.KernelIdeal.Gen.V_main_arg1 m c, Cert.KernelIdeal.HostV.V_xx m c, Cert.KernelIdeal.HostV.V_sx m c,
    Cert.KernelIdeal.HostV.V_yy m c, Cert.KernelIdeal.HostV.V_sy m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
